-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x32 : Shape := ⟨2, ![16384, 32]⟩
abbrev S500000x64 : Shape := ⟨2, ![500000, 64]⟩
abbrev S1000000x64 : Shape := ⟨2, ![1000000, 64]⟩
abbrev S64x64 : Shape := ⟨2, ![64, 64]⟩
abbrev S64x4096 : Shape := ⟨2, ![64, 4096]⟩
abbrev S64 : Shape := ⟨1, ![64]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S1000000x64 : S_.BroadcastsInDim S1000000x64 (![] : Fin 0 → Fin S1000000x64.rank)
  reducesTo_S1000000x64_S_d0_1 : S1000000x64.ReducesTo [0, 1] S_
  bcast_S_S64x64 : S_.BroadcastsInDim S64x64 (![] : Fin 0 → Fin S64x64.rank)
  reducesTo_S64x64_S_d0_1 : S64x64.ReducesTo [0, 1] S_
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg8 : FVec F S64x4096 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x4096 .f32 := Host.absf main_arg8
  let main_cst_6 : FVec F S_ .f32 := constant S_ .f32 0x7F800000#32
  let main_v20 : FVec F S64x4096 .f32 := broadcastInDim S64x4096 ![] bcast_S_S64x4096 main_cst_6
  let main_v21 : IVec S64x4096 1 := cmpf .olt main_v19 main_v20
  let main_c_7 : IVec S_ 1 := constantI S_ 1 1#1
  let main_v22 : IVec S_ 1 := (fun x v => Host.reduce IntOp.andi x v reducesTo_S64x4096_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : IVec S16384 32) (main_arg1 : IVec S16384 32) (main_arg2 : FVec F S16384 .f32) (main_arg3 : IVec S16384x32 32) (main_arg4 : IVec S16384x32 32) (main_arg5 : FVec F S500000x64 .f32) (main_arg6 : FVec F S1000000x64 .f32) (main_arg7 : FVec F S64x64 .f32) (main_arg8 : FVec F S64x4096 .f32) (main_arg9 : FVec F S64 .f32) : IVec S_ 1 :=
  let main_v0 : FVec F S16384 .f32 := Host.absf main_arg2
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S500000x64 .f32 := Host.absf main_arg5
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S1000000x64 .f32 := Host.absf main_arg6
  let main_cst_2 : FVec F S_ .f32 := constant S_ .f32 0x7F800000#32
  let main_v10 : FVec F S1000000x64 .f32 := broadcastInDim S1000000x64 ![] bcast_S_S1000000x64 main_cst_2
  let main_v11 : IVec S1000000x64 1 := cmpf .olt main_v9 main_v10
  let main_c_3 : IVec S_ 1 := constantI S_ 1 1#1
  let main_v12 : IVec S_ 1 := (fun x v => Host.reduce IntOp.andi x v reducesTo_S1000000x64_S_d0_1 h_S_) main_v11 main_c_3
  let main_v13 : IVec S_ 1 := andi main_v8 main_v12
  let main_v14 : FVec F S64x64 .f32 := Host.absf main_arg7
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg8 main_arg9 main_v13 main_v16
-- ==== Kernel.lean ====
abbrev S16384 : Shape := ⟨1, ![16384]⟩
abbrev S16384x32 : Shape := ⟨2, ![16384, 32]⟩
abbrev S500000x64 : Shape := ⟨2, ![500000, 64]⟩
abbrev S1000000x64 : Shape := ⟨2, ![1000000, 64]⟩
abbrev S64x64 : Shape := ⟨2, ![64, 64]⟩
abbrev S64x4096 : Shape := ⟨2, ![64, 4096]⟩
abbrev S64 : Shape := ⟨1, ![64]⟩
abbrev S_ : Shape := ⟨0, ![]⟩
abbrev S16384x1 : Shape := ⟨2, ![16384, 1]⟩
abbrev S16384x64 : Shape := ⟨2, ![16384, 64]⟩
abbrev S16384x32x1 : Shape := ⟨3, ![16384, 32, 1]⟩
abbrev S16384x32x64 : Shape := ⟨3, ![16384, 32, 64]⟩
abbrev S16384x32x128 : Shape := ⟨3, ![16384, 32, 128]⟩
abbrev S16384x4096 : Shape := ⟨2, ![16384, 4096]⟩
abbrev S4096x64 : Shape := ⟨2, ![4096, 64]⟩
abbrev S1x64 : Shape := ⟨2, ![1, 64]⟩
abbrev S2048x64 : Shape := ⟨2, ![2048, 64]⟩
abbrev S2048x4096 : Shape := ⟨2, ![2048, 4096]⟩
abbrev S2048 : Shape := ⟨1, ![2048]⟩

abbrev nBuf : Space → Nat
  | .hbm => 99
  | .vmem => 12
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .f32⟩
  | .hbm, ⟨3, _⟩ => ⟨S16384x32, .i32⟩
  | .hbm, ⟨4, _⟩ => ⟨S16384x32, .i32⟩
  | .hbm, ⟨5, _⟩ => ⟨S500000x64, .f32⟩
  | .hbm, ⟨6, _⟩ => ⟨S1000000x64, .f32⟩
  | .hbm, ⟨7, _⟩ => ⟨S64x64, .f32⟩
  | .hbm, ⟨8, _⟩ => ⟨S64x4096, .f32⟩
  | .hbm, ⟨9, _⟩ => ⟨S64, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S16384x64, .f32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S16384x1, .i32⟩
  | .hbm, ⟨27, _⟩ => ⟨S16384x64, .f32⟩
  | .hbm, ⟨28, _⟩ => ⟨S_, .i32⟩
  | .hbm, ⟨29, _⟩ => ⟨S16384x32, .i32⟩
  | .hbm, ⟨30, _⟩ => ⟨S16384x32, .i1⟩
  | .hbm, ⟨31, _⟩ => ⟨S_, .i32⟩
  | .hbm, ⟨32, _⟩ => ⟨S16384x32, .i32⟩
  | .hbm, ⟨33, _⟩ => ⟨S16384x32, .i32⟩
  | .hbm, ⟨34, _⟩ => ⟨S16384x32, .i32⟩
  | .hbm, ⟨35, _⟩ => ⟨S16384x32x1, .i32⟩
  | .hbm, ⟨36, _⟩ => ⟨S16384x32x64, .f32⟩
  | .hbm, ⟨37, _⟩ => ⟨S_, .i32⟩
  | .hbm, ⟨38, _⟩ => ⟨S16384x32, .i32⟩
  | .hbm, ⟨39, _⟩ => ⟨S16384x32, .i1⟩
  | .hbm, ⟨40, _⟩ => ⟨S_, .i32⟩
  | .hbm, ⟨41, _⟩ => ⟨S16384x32, .i32⟩
  | .hbm, ⟨42, _⟩ => ⟨S16384x32, .i32⟩
  | .hbm, ⟨43, _⟩ => ⟨S16384x32, .i32⟩
  | .hbm, ⟨44, _⟩ => ⟨S16384x32x1, .i32⟩
  | .hbm, ⟨45, _⟩ => ⟨S16384x32x64, .f32⟩
  | .hbm, ⟨46, _⟩ => ⟨S16384x32x128, .f32⟩
  | .hbm, ⟨47, _⟩ => ⟨S16384x4096, .f32⟩
  | .hbm, ⟨48, _⟩ => ⟨S16384x4096, .bf16⟩
  | .hbm, ⟨49, _⟩ => ⟨S4096x64, .f32⟩
  | .hbm, ⟨50, _⟩ => ⟨S4096x64, .bf16⟩
  | .hbm, ⟨51, _⟩ => ⟨S1x64, .f32⟩
  | .hbm, ⟨52, _⟩ => ⟨S16384, .f32⟩
  | .hbm, ⟨53, _⟩ => ⟨S16384, .f32⟩
  | .hbm, ⟨54, _⟩ => ⟨S16384, .f32⟩
  | .hbm, ⟨55, _⟩ => ⟨S_, .f32⟩
  | .hbm, ⟨56, _⟩ => ⟨S_, .f32⟩
  | .hbm, ⟨57, _⟩ => ⟨S16384, .f32⟩
  | .hbm, ⟨58, _⟩ => ⟨S16384, .f32⟩
  | .hbm, ⟨59, _⟩ => ⟨S16384, .f32⟩
  | .hbm, ⟨60, _⟩ => ⟨S16384, .f32⟩
  | .hbm, ⟨61, _⟩ => ⟨S_, .f32⟩
  | .hbm, ⟨62, _⟩ => ⟨S_, .f32⟩
  | .hbm, ⟨63, _⟩ => ⟨S16384, .f32⟩
  | .hbm, ⟨64, _⟩ => ⟨S16384, .f32⟩
  | .hbm, ⟨65, _⟩ => ⟨S16384, .f32⟩
  | .hbm, ⟨66, _⟩ => ⟨S_, .f32⟩
  | .hbm, ⟨67, _⟩ => ⟨S16384, .f32⟩
  | .hbm, ⟨68, _⟩ => ⟨S16384, .f32⟩
  | .hbm, ⟨69, _⟩ => ⟨S16384, .f32⟩
  | .hbm, ⟨70, _⟩ => ⟨S16384, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S16384, .f32⟩
  | .hbm, ⟨77, _⟩ => ⟨S_, .f32⟩
  | .hbm, ⟨78, _⟩ => ⟨S_, .f32⟩
  | .hbm, ⟨79, _⟩ => ⟨S16384, .f32⟩
  | .hbm, ⟨80, _⟩ => ⟨S16384, .f32⟩
  | .hbm, ⟨81, _⟩ => ⟨S16384, .f32⟩
  | .hbm, ⟨82, _⟩ => ⟨S16384, .f32⟩
  | .hbm, ⟨83, _⟩ => ⟨S_, .f32⟩
  | .hbm, ⟨84, _⟩ => ⟨S_, .f32⟩
  | .hbm, ⟨85, _⟩ => ⟨S16384, .f32⟩
  | .hbm, ⟨86, _⟩ => ⟨S16384, .f32⟩
  | .hbm, ⟨87, _⟩ => ⟨S16384, .f32⟩
  | .hbm, ⟨88, _⟩ => ⟨S_, .f32⟩
  | .hbm, ⟨89, _⟩ => ⟨S16384, .f32⟩
  | .hbm, ⟨90, _⟩ => ⟨S16384, .f32⟩
  | .hbm, ⟨91, _⟩ => ⟨S16384, .f32⟩
  | .hbm, ⟨92, _⟩ => ⟨S16384, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x4096, .bf16⟩
  | .local _ .vmem, ⟨5, _⟩ => ⟨S2048x4096, .bf16⟩
  | .local _ .vmem, ⟨6, _⟩ => ⟨S4096x64, .bf16⟩
  | .local _ .vmem, ⟨7, _⟩ => ⟨S1x64, .f32⟩
  | .local _ .vmem, ⟨8, _⟩ => ⟨S2048, .f32⟩
  | .local _ .vmem, ⟨9, _⟩ => ⟨S2048, .f32⟩
  | .local _ .vmem, ⟨10, _⟩ => ⟨S2048, .f32⟩
  | .local _ .vmem, ⟨11, _⟩ => ⟨S2048, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34_0 : Ref sig .tc := ⟨.hbm, 52, rfl⟩
abbrev main_v34_1 : Ref sig .tc := ⟨.hbm, 53, rfl⟩
abbrev main_v35 : Ref sig .tc := ⟨.hbm, 54, rfl⟩
abbrev main_cst : Ref sig .tc := ⟨.hbm, 55, rfl⟩
abbrev main_call0_v0 : Ref sig .tc := ⟨.hbm, 56, rfl⟩
abbrev main_call0_v1 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_call1_v0 : Ref sig .tc := ⟨.hbm, 62, rfl⟩
abbrev main_call1_v1 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_11 : Ref sig .tc := ⟨.hbm, 77, rfl⟩
abbrev main_call2_v0 : Ref sig .tc := ⟨.hbm, 78, rfl⟩
abbrev main_call2_v1 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_12 : Ref sig .tc := ⟨.hbm, 83, rfl⟩
abbrev main_call3_v0 : Ref sig .tc := ⟨.hbm, 84, rfl⟩
abbrev main_call3_v1 : Ref sig .tc := ⟨.hbm, 85, rfl⟩
abbrev main_v52 : Ref sig .tc := ⟨.hbm, 86, rfl⟩
abbrev main_v53 : Ref sig .tc := ⟨.hbm, 87, rfl⟩
abbrev main_cst_13 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_14 : Ref sig .tc := ⟨.hbm, 93, rfl⟩
abbrev main_v58 : Ref sig .tc := ⟨.hbm, 94, rfl⟩
abbrev main_cst_15 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  concatenates_S16384x32x64_S16384x32x64_S16384x32x128_d2 : Shape.Concatenates [S16384x32x64, S16384x32x64] S16384x32x128 2
  shapeCasts_S16384x32x128_S16384x4096 : S16384x32x128.ShapeCasts S16384x4096
  bitsLt_bf16_f32 : FTy.bits .bf16 < FTy.bits .f32
  transposes_S64x4096_S4096x64_1_0 : S64x4096.Transposes [1, 0] S4096x64
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  reduces_S2048x64_S2048 : S2048x64.Reduces [1] S2048
  inb_S2048_S2048_0 : ∀ a, (![0] : Fin 1 → Nat) a + S2048.size a ≤ S2048.size a
  h_S2048 : 0 < S2048.numel
  reducesTo_S16384_S_d0 : S16384.ReducesTo [0] S_
  h_S_ : 0 < S_.numel
  gather_S500000x64_S16384x1_S16384x64_1_0_n_n_0_1_164_wf : GatherDims.WF S500000x64 S16384x1 S16384x64 [1] [0] [] [0] [] 1 ![1, 64]
  gather_S1000000x64_S16384x1_S16384x64_1_0_n_n_0_1_164_wf : GatherDims.WF S1000000x64 S16384x1 S16384x64 [1] [0] [] [0] [] 1 ![1, 64]
  gather_S64x64_S16384x32x1_S16384x32x64_2_0_n_n_0_2_164_wf : GatherDims.WF S64x64 S16384x32x1 S16384x32x64 [2] [0] [] [0] [] 2 ![1, 64]
  gather_S1000000x64_S16384x32x1_S16384x32x64_2_0_n_n_0_2_164_wf : GatherDims.WF S1000000x64 S16384x32x1 S16384x32x64 [2] [0] [] [0] [] 2 ![1, 64]
  dot_S2048x4096_S4096x64_S2048x64_1_0_0_1_n_n_wf : DotDims.WF S2048x4096 S4096x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .f32 = 32 ∨ (Rect.block (s := S16384x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x4096.size a ≤ S16384x4096.size a
  hwx0_2 : ∀ i : grid0.Coords, EltTy.bits .bf16 = 32 ∨ (Rect.block (s := S16384x4096) S2048x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S4096x64.size a
  hwx0_3 : ∀ i : grid0.Coords, EltTy.bits .bf16 = 32 ∨ (Rect.block (s := S4096x64) S4096x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S16384.size a
  hwx0_5 : ∀ i : grid0.Coords, EltTy.bits .f32 = 32 ∨ (Rect.block (s := S16384) S2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S16384.size a
  hwx0_6 : ∀ i : grid0.Coords, EltTy.bits .f32 = 32 ∨ (Rect.block (s := S16384) S2048.size (cc0_transform_6 i) (hinb0_6 i)).WholeWords (EltTy.packing .f32)

variable [Facts₀]

def gather_S500000x64_S16384x1_S16384x64_1_0_n_n_0_1_164 : GatherDims S500000x64 S16384x1 S16384x64 where
  offsetDims := [1]
  collapsedSliceDims := [0]
  operandBatchingDims := []
  startIndicesBatchingDims := []
  startIndexMap := [0]
  indexVectorDim := 1
  sliceSizes := ![1, 64]
  wf := gather_S500000x64_S16384x1_S16384x64_1_0_n_n_0_1_164_wf
def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S64x64_S16384x32x1_S16384x32x64_2_0_n_n_0_2_164 : GatherDims S64x64 S16384x32x1 S16384x32x64 where
  offsetDims := [2]
  collapsedSliceDims := [0]
  operandBatchingDims := []
  startIndicesBatchingDims := []
  startIndexMap := [0]
  indexVectorDim := 2
  sliceSizes := ![1, 64]
  wf := gather_S64x64_S16384x32x1_S16384x32x64_2_0_n_n_0_2_164_wf
def gather_S1000000x64_S16384x32x1_S16384x32x64_2_0_n_n_0_2_164 : GatherDims S1000000x64 S16384x32x1 S16384x32x64 where
  offsetDims := [2]
  collapsedSliceDims := [0]
  operandBatchingDims := []
  startIndicesBatchingDims := []
  startIndexMap := [0]
  indexVectorDim := 2
  sliceSizes := ![1, 64]
  wf := gather_S1000000x64_S16384x32x1_S16384x32x64_2_0_n_n_0_2_164_wf
def dot_S2048x4096_S4096x64_S2048x64_1_0_0_1_n_n : DotDims S2048x4096 S4096x64 S2048x64 where
  lhsContracting := [1]
  rhsContracting := [0]
  lhsNonContracting := [0]
  rhsNonContracting := [1]
  lhsBatch := []
  rhsBatch := []
  wf := dot_S2048x4096_S4096x64_S2048x64_1_0_0_1_n_n_wf

abbrev win0_0 : Pipeline.Window sig grid0 :=
  Pipeline.Window.ofSpec (Memref.whole main_v6) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2048x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S4096x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34_0) S2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v34_1) S2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384 : Shape := ⟨1, ![16384]⟩
abbrev S16384x32 : Shape := ⟨2, ![16384, 32]⟩
abbrev S500000x64 : Shape := ⟨2, ![500000, 64]⟩
abbrev S1000000x64 : Shape := ⟨2, ![1000000, 64]⟩
abbrev S64x64 : Shape := ⟨2, ![64, 64]⟩
abbrev S64x4096 : Shape := ⟨2, ![64, 4096]⟩
abbrev S64 : Shape := ⟨1, ![64]⟩
abbrev S_ : Shape := ⟨0, ![]⟩
abbrev S16384x1 : Shape := ⟨2, ![16384, 1]⟩
abbrev S16384x64 : Shape := ⟨2, ![16384, 64]⟩
abbrev S16384x32x1 : Shape := ⟨3, ![16384, 32, 1]⟩
abbrev S16384x32x64 : Shape := ⟨3, ![16384, 32, 64]⟩
abbrev S16384x32x128 : Shape := ⟨3, ![16384, 32, 128]⟩
abbrev S16384x4096 : Shape := ⟨2, ![16384, 4096]⟩
abbrev S4096x64 : Shape := ⟨2, ![4096, 64]⟩
abbrev S1x64 : Shape := ⟨2, ![1, 64]⟩

abbrev nBuf : Space → Nat
  | .hbm => 128
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .f32⟩
  | .hbm, ⟨3, _⟩ => ⟨S16384x32, .i32⟩
  | .hbm, ⟨4, _⟩ => ⟨S16384x32, .i32⟩
  | .hbm, ⟨5, _⟩ => ⟨S500000x64, .f32⟩
  | .hbm, ⟨6, _⟩ => ⟨S1000000x64, .f32⟩
  | .hbm, ⟨7, _⟩ => ⟨S64x64, .f32⟩
  | .hbm, ⟨8, _⟩ => ⟨S64x4096, .f32⟩
  | .hbm, ⟨9, _⟩ => ⟨S64, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S16384x64, .f32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S16384x1, .i32⟩
  | .hbm, ⟨27, _⟩ => ⟨S16384x64, .f32⟩
  | .hbm, ⟨28, _⟩ => ⟨S16384x64, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S16384, .f32⟩
  | .hbm, ⟨35, _⟩ => ⟨S16384, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S_, .i32⟩
  | .hbm, ⟨40, _⟩ => ⟨S16384x32, .i32⟩
  | .hbm, ⟨41, _⟩ => ⟨S16384x32, .i1⟩
  | .hbm, ⟨42, _⟩ => ⟨S_, .i32⟩
  | .hbm, ⟨43, _⟩ => ⟨S16384x32, .i32⟩
  | .hbm, ⟨44, _⟩ => ⟨S16384x32, .i32⟩
  | .hbm, ⟨45, _⟩ => ⟨S16384x32, .i32⟩
  | .hbm, ⟨46, _⟩ => ⟨S16384x32x1, .i32⟩
  | .hbm, ⟨47, _⟩ => ⟨S16384x32x64, .f32⟩
  | .hbm, ⟨48, _⟩ => ⟨S_, .i32⟩
  | .hbm, ⟨49, _⟩ => ⟨S16384x32, .i32⟩
  | .hbm, ⟨50, _⟩ => ⟨S16384x32, .i1⟩
  | .hbm, ⟨51, _⟩ => ⟨S_, .i32⟩
  | .hbm, ⟨52, _⟩ => ⟨S16384x32, .i32⟩
  | .hbm, ⟨53, _⟩ => ⟨S16384x32, .i32⟩
  | .hbm, ⟨54, _⟩ => ⟨S16384x32, .i32⟩
  | .hbm, ⟨55, _⟩ => ⟨S16384x32x1, .i32⟩
  | .hbm, ⟨56, _⟩ => ⟨S16384x32x64, .f32⟩
  | .hbm, ⟨57, _⟩ => ⟨S16384x32x128, .f32⟩
  | .hbm, ⟨58, _⟩ => ⟨S16384x4096, .f32⟩
  | .hbm, ⟨59, _⟩ => ⟨S4096x64, .f32⟩
  | .hbm, ⟨60, _⟩ => ⟨S16384x64, .f32⟩
  | .hbm, ⟨61, _⟩ => ⟨S1x64, .f32⟩
  | .hbm, ⟨62, _⟩ => ⟨S16384x64, .f32⟩
  | .hbm, ⟨63, _⟩ => ⟨S16384x64, .f32⟩
  | .hbm, ⟨64, _⟩ => ⟨S16384x64, .f32⟩
  | .hbm, ⟨65, _⟩ => ⟨S16384x64, .f32⟩
  | .hbm, ⟨66, _⟩ => ⟨S_, .f32⟩
  | .hbm, ⟨67, _⟩ => ⟨S16384x64, .f32⟩
  | .hbm, ⟨68, _⟩ => ⟨S16384x64, .f32⟩
  | .hbm, ⟨69, _⟩ => ⟨S_, .f32⟩
  | .hbm, ⟨70, _⟩ => ⟨S16384x64, .f32⟩
  | .hbm, ⟨71, _⟩ => ⟨S16384x64, .f32⟩
  | .hbm, ⟨72, _⟩ => ⟨S16384x64, .f32⟩
  | .hbm, ⟨73, _⟩ => ⟨S_, .f32⟩
  | .hbm, ⟨74, _⟩ => ⟨S16384, .f32⟩
  | .hbm, ⟨75, _⟩ => ⟨S16384, .f32⟩
  | .hbm, ⟨76, _⟩ => ⟨S16384, .f32⟩
  | .hbm, ⟨77, _⟩ => ⟨S_, .f32⟩
  | .hbm, ⟨78, _⟩ => ⟨S16384, .f32⟩
  | .hbm, ⟨79, _⟩ => ⟨S16384, .f32⟩
  | .hbm, ⟨80, _⟩ => ⟨S_, .f32⟩
  | .hbm, ⟨81, _⟩ => ⟨S16384, .f32⟩
  | .hbm, ⟨82, _⟩ => ⟨S16384, .f32⟩
  | .hbm, ⟨83, _⟩ => ⟨S16384, .f32⟩
  | .hbm, ⟨84, _⟩ => ⟨S_, .f32⟩
  | .hbm, ⟨85, _⟩ => ⟨S_, .f32⟩
  | .hbm, ⟨86, _⟩ => ⟨S16384, .f32⟩
  | .hbm, ⟨87, _⟩ => ⟨S16384, .f32⟩
  | .hbm, ⟨88, _⟩ => ⟨S16384, .f32⟩
  | .hbm, ⟨89, _⟩ => ⟨S16384, .f32⟩
  | .hbm, ⟨90, _⟩ => ⟨S_, .f32⟩
  | .hbm, ⟨91, _⟩ => ⟨S_, .f32⟩
  | .hbm, ⟨92, _⟩ => ⟨S16384, .f32⟩
  | .hbm, ⟨93, _⟩ => ⟨S16384, .f32⟩
  | .hbm, ⟨94, _⟩ => ⟨S16384, .f32⟩
  | .hbm, ⟨95, _⟩ => ⟨S_, .f32⟩
  | .hbm, ⟨96, _⟩ => ⟨S16384, .f32⟩
  | .hbm, ⟨97, _⟩ => ⟨S16384, .f32⟩
  | .hbm, ⟨98, _⟩ => ⟨S16384, .f32⟩
  | .hbm, ⟨99, _⟩ => ⟨S16384, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S16384, .f32⟩
  | .hbm, ⟨106, _⟩ => ⟨S_, .f32⟩
  | .hbm, ⟨107, _⟩ => ⟨S_, .f32⟩
  | .hbm, ⟨108, _⟩ => ⟨S16384, .f32⟩
  | .hbm, ⟨109, _⟩ => ⟨S16384, .f32⟩
  | .hbm, ⟨110, _⟩ => ⟨S16384, .f32⟩
  | .hbm, ⟨111, _⟩ => ⟨S16384, .f32⟩
  | .hbm, ⟨112, _⟩ => ⟨S_, .f32⟩
  | .hbm, ⟨113, _⟩ => ⟨S_, .f32⟩
  | .hbm, ⟨114, _⟩ => ⟨S16384, .f32⟩
  | .hbm, ⟨115, _⟩ => ⟨S16384, .f32⟩
  | .hbm, ⟨116, _⟩ => ⟨S16384, .f32⟩
  | .hbm, ⟨117, _⟩ => ⟨S_, .f32⟩
  | .hbm, ⟨118, _⟩ => ⟨S16384, .f32⟩
  | .hbm, ⟨119, _⟩ => ⟨S16384, .f32⟩
  | .hbm, ⟨120, _⟩ => ⟨S16384, .f32⟩
  | .hbm, ⟨121, _⟩ => ⟨S16384, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_cst_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_14 : Ref sig .tc := ⟨.hbm, 84, rfl⟩
abbrev main_call0_v0 : Ref sig .tc := ⟨.hbm, 85, rfl⟩
abbrev main_call0_v1 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_15 : Ref sig .tc := ⟨.hbm, 90, rfl⟩
abbrev main_call1_v0 : Ref sig .tc := ⟨.hbm, 91, rfl⟩
abbrev main_call1_v1 : Ref sig .tc := ⟨.hbm, 92, rfl⟩
abbrev main_v61 : Ref sig .tc := ⟨.hbm, 93, rfl⟩
abbrev main_v62 : Ref sig .tc := ⟨.hbm, 94, rfl⟩
abbrev main_cst_16 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_17 : Ref sig .tc := ⟨.hbm, 100, rfl⟩
abbrev main_v67 : Ref sig .tc := ⟨.hbm, 101, rfl⟩
abbrev main_cst_18 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_19 : Ref sig .tc := ⟨.hbm, 106, rfl⟩
abbrev main_call2_v0 : Ref sig .tc := ⟨.hbm, 107, rfl⟩
abbrev main_call2_v1 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_20 : Ref sig .tc := ⟨.hbm, 112, rfl⟩
abbrev main_call3_v0 : Ref sig .tc := ⟨.hbm, 113, rfl⟩
abbrev main_call3_v1 : Ref sig .tc := ⟨.hbm, 114, rfl⟩
abbrev main_v74 : Ref sig .tc := ⟨.hbm, 115, rfl⟩
abbrev main_v75 : Ref sig .tc := ⟨.hbm, 116, rfl⟩
abbrev main_cst_21 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_22 : Ref sig .tc := ⟨.hbm, 122, rfl⟩
abbrev main_v80 : Ref sig .tc := ⟨.hbm, 123, rfl⟩
abbrev main_cst_23 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S16384_d1 : S16384x64.ReducesTo [1] S16384
  h_S_ : 0 < S_.numel
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  concatenates_S16384x32x64_S16384x32x64_S16384x32x128_d2 : Shape.Concatenates [S16384x32x64, S16384x32x64] S16384x32x128 2
  shapeCasts_S16384x32x128_S16384x4096 : S16384x32x128.ShapeCasts S16384x4096
  transposes_S64x4096_S4096x64_1_0 : S64x4096.Transposes [1, 0] S4096x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  reducesTo_S16384_S_d0 : S16384.ReducesTo [0] S_
  gather_S500000x64_S16384x1_S16384x64_1_0_n_n_0_1_164_wf : GatherDims.WF S500000x64 S16384x1 S16384x64 [1] [0] [] [0] [] 1 ![1, 64]
  gather_S1000000x64_S16384x1_S16384x64_1_0_n_n_0_1_164_wf : GatherDims.WF S1000000x64 S16384x1 S16384x64 [1] [0] [] [0] [] 1 ![1, 64]
  gather_S64x64_S16384x32x1_S16384x32x64_2_0_n_n_0_2_164_wf : GatherDims.WF S64x64 S16384x32x1 S16384x32x64 [2] [0] [] [0] [] 2 ![1, 64]
  gather_S1000000x64_S16384x32x1_S16384x32x64_2_0_n_n_0_2_164_wf : GatherDims.WF S1000000x64 S16384x32x1 S16384x32x64 [2] [0] [] [0] [] 2 ![1, 64]
  dot_S16384x4096_S4096x64_S16384x64_1_0_0_1_n_n_wf : DotDims.WF S16384x4096 S4096x64 S16384x64 [1] [0] [0] [1] [] []

variable [Facts₀]

def gather_S500000x64_S16384x1_S16384x64_1_0_n_n_0_1_164 : GatherDims S500000x64 S16384x1 S16384x64 where
  offsetDims := [1]
  collapsedSliceDims := [0]
  operandBatchingDims := []
  startIndicesBatchingDims := []
  startIndexMap := [0]
  indexVectorDim := 1
  sliceSizes := ![1, 64]
  wf := gather_S500000x64_S16384x1_S16384x64_1_0_n_n_0_1_164_wf
def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S64x64_S16384x32x1_S16384x32x64_2_0_n_n_0_2_164 : GatherDims S64x64 S16384x32x1 S16384x32x64 where
  offsetDims := [2]
  collapsedSliceDims := [0]
  operandBatchingDims := []
  startIndicesBatchingDims := []
  startIndexMap := [0]
  indexVectorDim := 2
  sliceSizes := ![1, 64]
  wf := gather_S64x64_S16384x32x1_S16384x32x64_2_0_n_n_0_2_164_wf
def gather_S1000000x64_S16384x32x1_S16384x32x64_2_0_n_n_0_2_164 : GatherDims S1000000x64 S16384x32x1 S16384x32x64 where
  offsetDims := [2]
  collapsedSliceDims := [0]
  operandBatchingDims := []
  startIndicesBatchingDims := []
  startIndexMap := [0]
  indexVectorDim := 2
  sliceSizes := ![1, 64]
  wf := gather_S1000000x64_S16384x32x1_S16384x32x64_2_0_n_n_0_2_164_wf
def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf

class Facts : Prop extends Facts₀ where

variable [Facts]
-- ==== Proof.Scores.lean ====
/-
  The two score vectors of the loss, as functions of whole arrays, index by index, on the extended reals.

  For a batch of 16384 rows: `pairScore u v` is, at row b, the logistic of the inner product of row b of `u` with row b of
  `v` (64 columns). `genItem tr wt bias` is the generated item matrix: at (b, d) the logistic of the affine map
  `∑ k, tr (b, k) · wt (k, d) + bias d` (4096 contraction indices). The two predictions of the program are
  `pairScore u it` and `pairScore u (genItem tr wt bias)`.
-/
import Idealize.ShloMosaic.PureOps.Ideal
import Idealize.ShloMosaic.PureOps.Ideal.Laws
import Idealize.ShloMosaic.Lib.ValueIdx

noncomputable section

open scoped BigOperators

namespace Cert.Scores

open Idealize.ShloMosaic Idealize.ShloMosaic.ValueIdx

/-- Row b of the result: the logistic of `∑ d, u (b, d) · v (b, d)`. -/
def pairScore (u v : (⟨2, ![16384, 64]⟩ : Shape).Idx → EReal) : (⟨1, ![16384]⟩ : Shape).Idx → EReal :=
  fun i => Ideal.logistic (∑ d : Fin 64, u (ix2 (i 0) d) * v (ix2 (i 0) d))

/-- Entry (b, d) of the generated item: the logistic of `∑ k, tr (b, k) · wt (k, d) + bias d`. -/
def genItem (tr : (⟨2, ![16384, 4096]⟩ : Shape).Idx → EReal) (wt : (⟨2, ![4096, 64]⟩ : Shape).Idx → EReal)
    (bias : Fin 64 → EReal) : (⟨2, ![16384, 64]⟩ : Shape).Idx → EReal :=
  fun j => Ideal.logistic ((∑ k : Fin 4096, tr (ix2 (j 0) k) * wt (ix2 k (j 1))) + bias (j 1))

/-- The logistic function is its textbook expression `1 / (1 + e^(-x))` on every extended real. -/
theorem logistic_eq (x : EReal) : Ideal.div 1 (1 + Ideal.exp (-x)) = Ideal.logistic x := rfl

/-- The pattern of the float `1.0` denotes the real one. -/
theorem one_f32 : Ideal.ofBits .f32 0x3F800000#32 = 1 := IdealRules.sign_bit.ideal_onePat .f32

end Cert.Scores

end
-- ==== Proof.BlockScores.lean ====
/-
  What the kernel body computes on ONE block of 2048 rows, read at a row, on the extended reals.

  The body loads a block `x0` of user rows, a block `x1` of item rows, a block `x2` of neighbourhood features (4096
  columns), the whole weight matrix `x3` (4096 × 64) and the bias row `x4` (1 × 64). It stores two vectors of 2048
  scores. At row r the first is the logistic of `∑ d, x0 (r, d) · x1 (r, d)`; the second is the logistic of
  `∑ d, x0 (r, d) · σ (∑ k, x2 (r, k) · x3 (k, d) + x4 (0, d))`, σ the logistic again. A lane sum is a finite sum over the
  64 columns, the matrix product into a zero accumulator a finite sum over the 4096 contraction indices, a format
  change is the identity, and a cast to the same shape does nothing.
-/
import proofs.«427795_j46832323395936_3_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The lane sum of a product of two 2048 × 64 blocks, at row r: the inner product of the two rows. -/
theorem rowdot (a b : FVec Ideal S2048x64 .f32) (r : Fin 2048) (hφ : FKind.Formats .f32)
    (hacc : (0x00000000#32 : BitVec 32) = FKind.add.neutral .f32 hφ) :
    multiReduction .add [1] S2048 (mulf a b) 0x00000000#32 reduces_S2048x64_S2048 hφ hacc (ix1 r)
      = ∑ d : Fin 64, a (ix2 r d) * b (ix2 r d) := by
  refine (Ideal.multiReduction_add_single (mulf a b) 0x00000000#32 reduces_S2048x64_S2048 hφ hacc (ix1 r)).trans ?_
  refine Finset.sum_congr rfl fun d _ => ?_
  have e : reduces_S2048x64_S2048.lift (ix1 r) d = ix2 r d :=
    funext fun x => Fin.ext (by match x with | ⟨0, _⟩ => rfl | ⟨1, _⟩ => rfl)
  rw [e]
  rfl

/-! The operand indices of the matrix product at an output index (r, d) and a contraction index k are (r, k) and (k, d). -/

theorem lhs_axis0 (i : S2048x64.Idx) (q : dot_S2048x4096_S4096x64_S2048x64_1_0_0_1_n_n.contr.Idx) :
    (dot_S2048x4096_S4096x64_S2048x64_1_0_0_1_n_n.lhsIdx i q 0).val = (i 0).val := by
  unfold DotDims.lhsIdx
  rw [dif_neg (show ¬(0 : Fin S2048x4096.rank) ∈ dot_S2048x4096_S4096x64_S2048x64_1_0_0_1_n_n.lhsBatch by decide), dif_pos (show (0 : Fin S2048x4096.rank) ∈ dot_S2048x4096_S4096x64_S2048x64_1_0_0_1_n_n.lhsNonContracting by decide)]
  rfl
theorem lhs_axis1 (i : S2048x64.Idx) (q : dot_S2048x4096_S4096x64_S2048x64_1_0_0_1_n_n.contr.Idx) :
    (dot_S2048x4096_S4096x64_S2048x64_1_0_0_1_n_n.lhsIdx i q 1).val = (q ⟨0, by decide⟩).val :=
  dot_S2048x4096_S4096x64_S2048x64_1_0_0_1_n_n.lhsIdx_val_of_single rfl i q
theorem rhs_axis0 (i : S2048x64.Idx) (q : dot_S2048x4096_S4096x64_S2048x64_1_0_0_1_n_n.contr.Idx) :
    (dot_S2048x4096_S4096x64_S2048x64_1_0_0_1_n_n.rhsIdx i q 0).val = (q ⟨0, by decide⟩).val :=
  dot_S2048x4096_S4096x64_S2048x64_1_0_0_1_n_n.rhsIdx_val_of_single rfl i q
theorem rhs_axis1 (i : S2048x64.Idx) (q : dot_S2048x4096_S4096x64_S2048x64_1_0_0_1_n_n.contr.Idx) :
    (dot_S2048x4096_S4096x64_S2048x64_1_0_0_1_n_n.rhsIdx i q 1).val = (i 1).val := by
  unfold DotDims.rhsIdx
  rw [dif_neg (show ¬(1 : Fin S4096x64.rank) ∈ dot_S2048x4096_S4096x64_S2048x64_1_0_0_1_n_n.rhsBatch by decide), dif_pos (show (1 : Fin S4096x64.rank) ∈ dot_S2048x4096_S4096x64_S2048x64_1_0_0_1_n_n.rhsNonContracting by decide)]
  rfl

/-- The matrix product of a 2048 × 4096 block with the 4096 × 64 weights into the zero accumulator, at (r, d). -/
theorem matmul_at (l : FVec Ideal S2048x4096 .bf16) (w : FVec Ideal S4096x64 .bf16) (r : Fin 2048) (d : Fin 64) :
    matmul dot_S2048x4096_S4096x64_S2048x64_1_0_0_1_n_n none l w (constant (F := Ideal) S2048x64 .f32 0x00000000#32) (ix2 r d)
      = ∑ k : Fin 4096, l (ix2 r k) * w (ix2 k d) := by
  simp only [matmul]
  rw [Ideal.matmul_constant_zero_apply, ← Equiv.sum_comp (contrEquiv1 dot_S2048x4096_S4096x64_S2048x64_1_0_0_1_n_n 4096 rfl rfl).symm]
  refine Finset.sum_congr rfl fun k _ => ?_
  have hk := contrEquiv1_symm_val dot_S2048x4096_S4096x64_S2048x64_1_0_0_1_n_n 4096 rfl rfl k
  have el : dot_S2048x4096_S4096x64_S2048x64_1_0_0_1_n_n.lhsIdx (ix2 r d) ((contrEquiv1 dot_S2048x4096_S4096x64_S2048x64_1_0_0_1_n_n 4096 rfl rfl).symm k) = ix2 r k := funext fun a => Fin.ext (by
    match a with
    | ⟨0, _⟩ => exact lhs_axis0 _ _
    | ⟨1, _⟩ => exact (lhs_axis1 _ _).trans hk)
  have er : dot_S2048x4096_S4096x64_S2048x64_1_0_0_1_n_n.rhsIdx (ix2 r d) ((contrEquiv1 dot_S2048x4096_S4096x64_S2048x64_1_0_0_1_n_n 4096 rfl rfl).symm k) = ix2 k d := funext fun a => Fin.ext (by
    match a with
    | ⟨0, _⟩ => exact (rhs_axis0 _ _).trans hk
    | ⟨1, _⟩ => exact rhs_axis1 _ _)
  rw [el, er]

/-- The bias row broadcast down the 2048 rows, at (r, d). -/
theorem bias_at (b : FVec Ideal S1x64 .f32) (r : Fin 2048) (d : Fin 64) :
    broadcastTo S2048x64 b broadcasts_S1x64_S2048x64 (ix2 r d) = b (ix2 (0 : Fin 1) d) :=
  broadcastTo_apply b broadcasts_S1x64_S2048x64 (ix2 r d) (ix2 (0 : Fin 1) d) (fun a => by
    match a with
    | ⟨0, _⟩ => show (0 : Nat) = if (1 : Nat) = 1 then 0 else _; rw [if_pos rfl]
    | ⟨1, _⟩ => show d.val = if (64 : Nat) = 1 then 0 else d.val; rw [if_neg (by decide)])

/-- The first stored vector at row r. -/
theorem first_score (x0 x1 : Vec Ideal S2048x64 .f32) (r : Fin 2048) :
    k0_pay2 (F := Ideal) x0 x1 (ix1 r) = Ideal.logistic (∑ d : Fin 64, x0 (ix2 r d) * x1 (ix2 r d)) := by
  unfold k0_pay2 k0_pay1
  simp only [shapeCast_self]
  exact congrArg Ideal.logistic (rowdot x0 x1 r _ _)

/-- The second stored vector at row r. -/
theorem second_score (x0 : Vec Ideal S2048x64 .f32) (x2 : Vec Ideal S2048x4096 .bf16) (x3 : Vec Ideal S4096x64 .bf16)
    (x4 : Vec Ideal S1x64 .f32) (r : Fin 2048) :
    k0_pay3 (F := Ideal) x0 x2 x3 x4 (ix1 r)
      = Ideal.logistic (∑ d : Fin 64, x0 (ix2 r d)
          * Ideal.logistic ((∑ k : Fin 4096, x2 (ix2 r k) * x3 (ix2 k d)) + x4 (ix2 (0 : Fin 1) d))) := by
  unfold k0_pay3 k0_pay1
  simp only [shapeCast_self]
  refine congrArg Ideal.logistic ((rowdot x0 _ r _ _).trans ?_)
  refine Finset.sum_congr rfl fun d _ => ?_
  refine congrArg (x0 (ix2 r d) * ·) ?_
  show Ideal.logistic (matmul dot_S2048x4096_S4096x64_S2048x64_1_0_0_1_n_n none x2 x3 (constant (F := Ideal) S2048x64 .f32 0x00000000#32) (ix2 r d)
    + broadcastTo S2048x64 x4 broadcasts_S1x64_S2048x64 (ix2 r d)) = _
  rw [matmul_at, bias_at]

end Cert.KernelIdeal.Hand

end
-- ==== Proof.BlockReads.lean ====
/-
  The blocks of the region's windows, read at an entry.

  The grid has 8 points. At point t each batch-tiled window (users, items, neighbourhood features, and the two
  outputs) is at block t along the rows: rows 2048 · t … 2048 · t + 2047; the weights and the bias are whole at every
  point. Each lemma reads one window's block of an ARBITRARY array at an entry.
-/
import proofs.«427795_j46832323395936_3_alg».proof.Proof.Gen.KernelIdeal.Frame
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Idealize.ShloMosaic Idealize.ShloMosaic.ValueIdx
open Idealize.ShloMosaic.Pipeline (Dat)

variable (m : (ℓ : Loc nD τ sig) → Buf (Elt Ideal) ℓ)

theorem zero1 : (![0] : Fin 1 → Nat) = fun _ => 0 := funext fun a => by fin_cases a; rfl
theorem zero2 : (![0, 0] : Fin 2 → Nat) = fun _ => 0 := funext fun a => by fin_cases a <;> rfl

/-- The printed index maps over the grid of 8 points: the three batch-tiled inputs and the two outputs are at block t
    along the rows at point t, and the weights and the bias are always at block 0. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = t.val ∧ win0_6.index t (0 : Fin 1) = t.val :=
  (by decide +kernel : ∀ t : Fin grid0.N, _)

theorem point_lt (t : Fin cfg0.N) : t.val < 8 := by have h : cfg0.N = 8 := N_0; have := t.isLt; omega

/-! Each input block at point t, read at an entry, is the array it is cut from at the row 2048 · t + r (a batch-tiled
    input), or the array itself (the weights, the bias). The array is a variable here: nothing of the host program is opened. -/

theorem read_users (t : Fin cfg0.N) (A : S16384x64.Idx → EReal) (r : Fin 2048) (d : Fin 64) (R : Fin 16384)
    (hR : R.val = 2048 * t.val + r.val) :
    (((cfg0.win 0).blk t).view.read (Elt Ideal) A : S2048x64.Idx → EReal) (ix2 r d) = A (ix2 R d) := by
  obtain ⟨e0, e1, -⟩ := index_maps t
  rw [View.read_apply]
  refine congrArg A (funext fun a => Fin.ext ?_)
  match a with
  | ⟨0, _⟩ => show win0_0.index t (0 : Fin 2) * 2048 + 1 * r.val = R.val; rw [e0, hR]; omega
  | ⟨1, _⟩ => show win0_0.index t (1 : Fin 2) * 64 + 1 * d.val = d.val; rw [e1]; omega

theorem read_items (t : Fin cfg0.N) (A : S16384x64.Idx → EReal) (r : Fin 2048) (d : Fin 64) (R : Fin 16384)
    (hR : R.val = 2048 * t.val + r.val) :
    (((cfg0.win 1).blk t).view.read (Elt Ideal) A : S2048x64.Idx → EReal) (ix2 r d) = A (ix2 R d) := by
  obtain ⟨-, -, e0, e1, -⟩ := index_maps t
  rw [View.read_apply]
  refine congrArg A (funext fun a => Fin.ext ?_)
  match a with
  | ⟨0, _⟩ => show win0_1.index t (0 : Fin 2) * 2048 + 1 * r.val = R.val; rw [e0, hR]; omega
  | ⟨1, _⟩ => show win0_1.index t (1 : Fin 2) * 64 + 1 * d.val = d.val; rw [e1]; omega

theorem read_feats (t : Fin cfg0.N) (A : S16384x4096.Idx → EReal) (r : Fin 2048) (k : Fin 4096) (R : Fin 16384)
    (hR : R.val = 2048 * t.val + r.val) :
    (((cfg0.win 2).blk t).view.read (Elt Ideal) A : S2048x4096.Idx → EReal) (ix2 r k) = A (ix2 R k) := by
  obtain ⟨-, -, -, -, e0, e1, -⟩ := index_maps t
  rw [View.read_apply]
  refine congrArg A (funext fun a => Fin.ext ?_)
  match a with
  | ⟨0, _⟩ => show win0_2.index t (0 : Fin 2) * 2048 + 1 * r.val = R.val; rw [e0, hR]; omega
  | ⟨1, _⟩ => show win0_2.index t (1 : Fin 2) * 4096 + 1 * k.val = k.val; rw [e1]; omega

theorem read_weights (t : Fin cfg0.N) (A : S4096x64.Idx → EReal) (k : Fin 4096) (d : Fin 64) :
    (((cfg0.win 3).blk t).view.read (Elt Ideal) A : S4096x64.Idx → EReal) (ix2 k d) = A (ix2 k d) := by
  obtain ⟨-, -, -, -, -, -, e0, e1, -⟩ := index_maps t
  rw [View.read_apply]
  refine congrArg A (funext fun a => Fin.ext ?_)
  match a with
  | ⟨0, _⟩ => show win0_3.index t (0 : Fin 2) * 4096 + 1 * k.val = k.val; rw [e0]; omega
  | ⟨1, _⟩ => show win0_3.index t (1 : Fin 2) * 64 + 1 * d.val = d.val; rw [e1]; omega

theorem read_bias (t : Fin cfg0.N) (A : S1x64.Idx → EReal) (d : Fin 64) :
    (((cfg0.win 4).blk t).view.read (Elt Ideal) A : S1x64.Idx → EReal) (ix2 (0 : Fin 1) d) = A (ix2 (0 : Fin 1) d) := by
  obtain ⟨-, -, -, -, -, -, -, -, e0, e1, -⟩ := index_maps t
  rw [View.read_apply]
  refine congrArg A (funext fun a => Fin.ext ?_)
  match a with
  | ⟨0, _⟩ => show win0_4.index t (0 : Fin 2) * 1 + 1 * 0 = 0; rw [e0]
  | ⟨1, _⟩ => show win0_4.index t (1 : Fin 2) * 64 + 1 * d.val = d.val; rw [e1]; omega

end Cert.KernelIdeal.Hand

end
-- ==== Proof.ScoreRuns.lean ====
/-
  The two output arrays of the region as whole-array functions of the arrays it is launched on.

  What point t writes back is block t of one whole-array function: `pairScore` of the two gathered embeddings for the
  first output, and `pairScore` of the users against the generated item for the second. The 8 blocks of 2048 rows
  cover the batch: the point of row i is i / 2048.
-/
import proofs.«427795_j46832323395936_3_alg».proof.Proof.Gen.KernelIdeal.Frame
import proofs.«427795_j46832323395936_3_alg».proof.Proof.Scores
import proofs.«427795_j46832323395936_3_alg».proof.Proof.BlockScores
import proofs.«427795_j46832323395936_3_alg».proof.Proof.BlockReads
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Idealize.ShloMosaic Idealize.ShloMosaic.ValueIdx
open Idealize.ShloMosaic.Pipeline (Dat)

variable (m : (ℓ : Loc nD τ sig) → Buf (Elt Ideal) ℓ)

/-- The arrays the region is launched on, as it finds them, by the type of their entries. -/
abbrev users (c : Dev nD) : S16384x64.Idx → EReal := V m c main_v6
abbrev items (c : Dev nD) : S16384x64.Idx → EReal := V m c main_v13
abbrev feats (c : Dev nD) : S16384x4096.Idx → EReal := V m c main_v30
abbrev weights (c : Dev nD) : S4096x64.Idx → EReal := V m c main_v32
abbrev biasRow (c : Dev nD) : S1x64.Idx → EReal := V m c main_v33

/-- The first output array the run leaves, and the second. -/
abbrev firstScores (c : Dev nD) : S16384.Idx → EReal := Cert.Scores.pairScore (users m c) (items m c)
abbrev secondScores (c : Dev nD) : S16384.Idx → EReal :=
  Cert.Scores.pairScore (users m c) (Cert.Scores.genItem (feats m c) (weights m c) fun d => biasRow m c (ix2 (0 : Fin 1) d))

/-- The row of the array that entry r of the output block of point t is. -/
theorem out_row5 (t : Fin cfg0.N) (r : Fin 2048) :
    ((((cfg0.win 5).blk t).view.emb (ix1 r) : S16384.Idx) 0).val = 2048 * t.val + r.val := by
  obtain ⟨-, -, -, -, -, -, -, -, -, -, e5, -⟩ := index_maps t
  show win0_5.index t (0 : Fin 1) * 2048 + 1 * r.val = _
  rw [e5]; omega
theorem out_row6 (t : Fin cfg0.N) (r : Fin 2048) :
    ((((cfg0.win 6).blk t).view.emb (ix1 r) : S16384.Idx) 0).val = 2048 * t.val + r.val := by
  obtain ⟨-, -, -, -, -, -, -, -, -, -, -, e6⟩ := index_maps t
  show win0_6.index t (0 : Fin 1) * 2048 + 1 * r.val = _
  rw [e6]; omega

/-- At point t, the first store of the body run on the blocks of ANY two arrays is block t of their `pairScore`. -/
theorem point_first (t : Fin cfg0.N) (A0 A1 : S16384x64.Idx → EReal) (x2 : Vec Ideal S2048x4096 .bf16)
    (x3 : Vec Ideal S4096x64 .bf16) (x4 : Vec Ideal S1x64 .f32) :
    out0_5 (((cfg0.win 0).blk t).view.read (Elt Ideal) A0) (((cfg0.win 1).blk t).view.read (Elt Ideal) A1) x2 x3 x4
      = ((cfg0.win 5).blk t).view.read (Elt Ideal) (Cert.Scores.pairScore A0 A1) := by
  unfold out0_5
  rw [View.canon_unit_zero zero1]
  simp only [View.ld_unit_zero (S := S2048x64) zero2]
  funext j
  obtain ⟨r, rfl⟩ : ∃ r : Fin 2048, j = ix1 r := ⟨j 0, eq_ix1 j⟩
  refine (first_score _ _ r).trans ?_
  rw [View.read_apply]
  have h := out_row5 t r
  show _ = Ideal.logistic (∑ d : Fin 64, A0 (ix2 ((((cfg0.win 5).blk t).view.emb (ix1 r) : S16384.Idx) 0) d)
    * A1 (ix2 ((((cfg0.win 5).blk t).view.emb (ix1 r) : S16384.Idx) 0) d))
  refine congrArg Ideal.logistic (Finset.sum_congr rfl fun d _ => ?_)
  rw [read_users t A0 r d _ h, read_items t A1 r d _ h]

/-- At point t, the second store of the body run on the blocks of ANY arrays is block t of the `pairScore` of the
    first against the generated item of the others. -/
theorem point_second (t : Fin cfg0.N) (A0 : S16384x64.Idx → EReal) (x1 : Vec Ideal S2048x64 .f32)
    (A2 : S16384x4096.Idx → EReal) (A3 : S4096x64.Idx → EReal) (A4 : S1x64.Idx → EReal) :
    out0_6 (((cfg0.win 0).blk t).view.read (Elt Ideal) A0) x1 (((cfg0.win 2).blk t).view.read (Elt Ideal) A2)
        (((cfg0.win 3).blk t).view.read (Elt Ideal) A3) (((cfg0.win 4).blk t).view.read (Elt Ideal) A4)
      = ((cfg0.win 6).blk t).view.read (Elt Ideal)
          (Cert.Scores.pairScore A0 (Cert.Scores.genItem A2 A3 fun d => A4 (ix2 (0 : Fin 1) d))) := by
  unfold out0_6
  rw [View.canon_unit_zero zero1]
  simp only [View.ld_unit_zero (S := S2048x64) zero2, View.ld_unit_zero (S := S2048x4096) zero2,
    View.ld_unit_zero (S := S4096x64) zero2, View.ld_unit_zero (S := S1x64) zero2]
  funext j
  obtain ⟨r, rfl⟩ : ∃ r : Fin 2048, j = ix1 r := ⟨j 0, eq_ix1 j⟩
  refine (second_score _ _ _ _ r).trans ?_
  rw [View.read_apply]
  have h := out_row6 t r
  show _ = Ideal.logistic (∑ d : Fin 64, A0 (ix2 ((((cfg0.win 6).blk t).view.emb (ix1 r) : S16384.Idx) 0) d)
    * Ideal.logistic ((∑ k : Fin 4096, A2 (ix2 ((((cfg0.win 6).blk t).view.emb (ix1 r) : S16384.Idx) 0) k) * A3 (ix2 k d))
        + A4 (ix2 (0 : Fin 1) d)))
  refine congrArg Ideal.logistic (Finset.sum_congr rfl fun d _ => ?_)
  rw [read_users t A0 r d _ h, read_bias t A4 d]
  refine congrArg (fun z => A0 _ * Ideal.logistic (z + _)) (Finset.sum_congr rfl fun k _ => ?_)
  rw [read_feats t A2 r k _ h, read_weights t A3 k d]

/-- What point t writes back into the first output is block t of `firstScores`. -/
theorem flushed_first (c : Dev nD) (t : Fin cfg0.N) :
    (dats m 0 c).flushed 5 t = ((cfg0.win 5).blk t).view.read (Elt Ideal) (firstScores m c) := by
  show (cfg0.win 5).cut (grid0.coords t) ((dats m 0 c).after 5 t) = _
  rw [after0_5]
  unfold iblk
  exact point_first t (V m c main_v6) (V m c main_v13) _ _ _

/-- What point t writes back into the second output is block t of `secondScores`. -/
theorem flushed_second (c : Dev nD) (t : Fin cfg0.N) :
    (dats m 0 c).flushed 6 t = ((cfg0.win 6).blk t).view.read (Elt Ideal) (secondScores m c) := by
  show (cfg0.win 6).cut (grid0.coords t) ((dats m 0 c).after 6 t) = _
  rw [after0_6]
  unfold iblk
  exact point_second t (V m c main_v6) _ (V m c main_v30) (V m c main_v32) (V m c main_v33)
/-- An index of a batch vector is in point t's block iff its row is among the 2048 rows of that block. -/
theorem mem_block5 (t : Fin cfg0.N) (i : S16384.Idx) :
    i ∈ ((cfg0.win 5).blk t).view.set ↔ ∀ a : Fin 1, win0_5.index t a * S2048.size a ≤ (i a).val ∧ (i a).val < win0_5.index t a * S2048.size a + S2048.size a := by
  show i ∈ ((View.whole main_v34_0).slice (win0_5.rect t)).set ↔ _
  rw [View.set_slice_whole, Rect.mem_set_unit]
  exact Iff.rfl
theorem mem_block6 (t : Fin cfg0.N) (i : S16384.Idx) :
    i ∈ ((cfg0.win 6).blk t).view.set ↔ ∀ a : Fin 1, win0_6.index t a * S2048.size a ≤ (i a).val ∧ (i a).val < win0_6.index t a * S2048.size a + S2048.size a := by
  show i ∈ ((View.whole main_v34_1).slice (win0_6.rect t)).set ↔ _
  rw [View.set_slice_whole, Rect.mem_set_unit]
  exact Iff.rfl

/-- The point whose block holds row i: i / 2048. -/
def pointOf (i : S16384.Idx) : Fin cfg0.N := ⟨(i 0).val / 2048, by
  have h : cfg0.N = 8 := N_0
  have := (i 0).isLt
  have h16 : (i 0).val < 16384 := this
  rw [h]; omega⟩

/-- The 8 blocks of 2048 rows cover the batch, so the first output ends at `firstScores` … -/
theorem final_first (c : Dev nD) : (dats m 0 c).arrAt 5 cfg0.N = firstScores m c :=
  (dats m 0 c).arrAt_eq_of_cover 5 (firstScores m c) (fun t _ => flushed_first m c t) fun i =>
    ⟨pointOf i, flush0_5 _, by
      rw [mem_block5]
      obtain ⟨-, -, -, -, -, -, -, -, -, -, e5, -⟩ := index_maps (pointOf i)
      intro a
      match a with
      | ⟨0, _⟩ =>
        show win0_5.index (pointOf i) (0 : Fin 1) * 2048 ≤ (i 0).val ∧ (i 0).val < win0_5.index (pointOf i) (0 : Fin 1) * 2048 + 2048
        rw [e5]
        show (i 0).val / 2048 * 2048 ≤ (i 0).val ∧ (i 0).val < (i 0).val / 2048 * 2048 + 2048
        omega⟩

/-- … and the second at `secondScores`. -/
theorem final_second (c : Dev nD) : (dats m 0 c).arrAt 6 cfg0.N = secondScores m c :=
  (dats m 0 c).arrAt_eq_of_cover 6 (secondScores m c) (fun t _ => flushed_second m c t) fun i =>
    ⟨pointOf i, flush0_6 _, by
      rw [mem_block6]
      obtain ⟨-, -, -, -, -, -, -, -, -, -, -, e6⟩ := index_maps (pointOf i)
      intro a
      match a with
      | ⟨0, _⟩ =>
        show win0_6.index (pointOf i) (0 : Fin 1) * 2048 ≤ (i 0).val ∧ (i 0).val < win0_6.index (pointOf i) (0 : Fin 1) * 2048 + 2048
        rw [e6]
        show (i 0).val / 2048 * 2048 ≤ (i 0).val ∧ (i 0).val < (i 0).val / 2048 * 2048 + 2048
        omega⟩

end Cert.KernelIdeal.Hand

end
-- ==== Proof.Loss.lean ====
/-
  The loss both programs end with, as ONE function of the label vector and the two score vectors.

  For a score vector p and labels y over the batch of 16384: the mean over the batch of
  `y · max (-100) (log p) + (1 - y) · max (-100) (log1p (-p))`, negated (the clamped binary cross-entropy); the result
  is the sum of that for the two score vectors. The operations are the host's, read at the extended reals; nothing here
  is opened by the proof: the two programs apply this same function to equal arguments.
-/
import proofs.«427795_j46832323395936_3_alg».proof.Proof.Gen.KernelIdeal
import Idealize.ShloMosaic.PureOps.Ideal

noncomputable section

namespace Cert.KernelIdeal.Hand

open Cert.KernelIdeal Cert.KernelIdeal.Gen Idealize.ShloMosaic

/-- The clamped binary cross-entropy of scores `p` against labels `y`, averaged over the batch and negated. -/
def meanBce (y p : FVec Ideal S16384 .f32) : FVec Ideal S_ .f32 :=
  Host.negf (Host.divf
    (Host.reduceAdd
      (addf
        (mulf y (maximumf (broadcastInDim S16384 ![] bcast_S_S16384 (id (constant (F := Ideal) S_ .f32 0xC2C80000#32))) (Host.log p)))
        (mulf (subf (broadcastInDim S16384 ![] bcast_S_S16384 (constant (F := Ideal) S_ .f32 0x3F800000#32)) y)
          (maximumf (broadcastInDim S16384 ![] bcast_S_S16384 (id (constant (F := Ideal) S_ .f32 0xC2C80000#32))) (Host.log1p (Host.negf p)))))
      (constant (F := Ideal) S_ .f32 0x00000000#32) reducesTo_S16384_S_d0 h_S_)
    (constant (F := Ideal) S_ .f32 0x46800000#32))

/-- The program's result: the two cross-entropies added. -/
def loss (y p q : FVec Ideal S16384 .f32) : FVec Ideal S_ .f32 := addf (meanBce y p) (meanBce y q)

end Cert.KernelIdeal.Hand

end
-- ==== Proof.KernelRun.lean ====
/-
  The idealized kernel's run, read: its result buffer ends at the loss of the labels and of the two score arrays.

  The region leaves its two output arrays at `firstScores` and `secondScores`; the host lines after it compute the loss
  of the label argument and of those two arrays, whatever the arrays hold; and no line writes an argument.
-/
import proofs.«427795_j46832323395936_3_alg».proof.Proof.Gen.KernelIdeal.Frame
import proofs.«427795_j46832323395936_3_alg».proof.Proof.ScoreRuns
import proofs.«427795_j46832323395936_3_alg».proof.Proof.Loss
import Idealize.ShloMosaic.Lib.StableHlo.Run

set_option maxRecDepth 16384

noncomputable section

namespace Cert.KernelIdeal.Hand

open Cert.KernelIdeal Cert.KernelIdeal.Gen Idealize.ShloMosaic Idealize.ShloMosaic.StableHlo Idealize.ShloMosaic.TcCoe Idealize.SL.Sem

set_option maxHeartbeats 8000000 in
/-- The host lines after the region, run over ANY contents `W` of the buffers, leave in the result buffer the loss of
    the label buffer and of the region's two output buffers as `W` has them. -/
theorem tail_eq (W : Valuation τ sig (Elt Ideal)) :
    StableHlo.after (List.flatten [hostOps1, hostOps1_1, hostOps1_2, hostOps1_3, hostOps1_4, hostOps1_5, hostOps1_6, hostOps1_7, hostOps1_8]) W (Proc.devRef .tc main_v61)
      = loss (W (Proc.devRef .tc main_arg2)) (W (Proc.devRef .tc main_v34_0)) (W (Proc.devRef .tc main_v34_1)) := by
  simp only [hostOps1, hostOps1_1, hostOps1_2, hostOps1_3, hostOps1_4, hostOps1_5, hostOps1_6, hostOps1_7, hostOps1_8, List.flatten_cons, List.flatten_nil, List.append_nil, List.cons_append, List.nil_append]
  after_results_simp
  rfl

variable (m : (ℓ : Loc nD τ sig) → Buf (Elt Ideal) ℓ) (ρ : Dev nD → PrngReg)

/-- What the lines after the region leave in the result buffer, over the arrays the region leaves. -/
theorem kernel_result (c : Dev nD) :
    Pipeline.afterTail₀ cfgs (dats m) 0 (V0 m) [hostOps1, hostOps1_1, hostOps1_2, hostOps1_3, hostOps1_4, hostOps1_5, hostOps1_6, hostOps1_7, hostOps1_8] c main_v61
      = loss (m ((c : Thread nD τ).loc main_arg2)) (firstScores m c) (secondScores m c) := by
  unfold Pipeline.afterTail₀
  refine (tail_eq _).trans ?_
  refine congr (congr (congrArg loss ?_) ?_) ?_
  · exact (Pipeline.withArrays_of_ne _ c (V0 m c) _ main_arg2 (by exact (by decide : ∀ w, Pipeline.arrRef spec0 w ≠ main_arg2))).trans (V_main_arg2 m c)
  · exact (Pipeline.withArrays_arr spec0 launch0.win.arr_inj c (V0 m c) _ 5).trans (final_first m c)
  · exact (Pipeline.withArrays_arr spec0 launch0.win.arr_inj c (V0 m c) _ 6).trans (final_second m c)

/-- The run of the idealized kernel program: it terminates with the result at that loss and the arguments unchanged. -/
theorem kernel_run : θ_run defs (onTc (τ := τ) (main (F := Ideal))) ⟨m, fun _ => 0, ρ⟩ (fun r => ∀ c : Dev nD,
      r.2.mem ((c.tc : Thread nD τ).loc main_v61) = loss (m ((c : Thread nD τ).loc main_arg2)) (firstScores m c) (secondScores m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_v61 (Pipeline.mem_restRefs_of main_v61 (by decide) (by decide))).trans (kernel_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩) (run_main m ρ)

end Cert.KernelIdeal.Hand

end
-- ==== Proof.RegionInputs.lean ====
/-
  The arrays the region is launched on, as terms of the program's arguments.

  The host lines before the region wrap negative indices once, gather the user and item rows and the neighbours'
  relation and entity rows, lay the neighbour rows side by side into a 16384 × 4096 matrix, transpose the weights and
  make the bias a 1 × 64 row. They are the very lines the reference starts with; a change of float format is the
  identity on the extended reals. So each array the region finds is the reference's value of the same name, and the
  bias row at (0, d) is the bias vector at d.
-/
import proofs.«427795_j46832323395936_3_alg».proof.Proof.Gen.KernelIdeal.Frame
import proofs.«427795_j46832323395936_3_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.StableHlo Idealize.ShloMosaic.TcCoe
  Idealize.SL.Sem Idealize.ShloMosaic.ValueIdx

/-! The host lines before the region, run over ANY contents `W` of the buffers. -/

set_option maxHeartbeats 8000000 in
theorem pre_users (W : Valuation τ sig (Elt Ideal)) :
    StableHlo.after (List.flatten [hostOps0]) W (Proc.devRef .tc main_v6)
      = Cert.ReferenceIdeal.Read.val_main_v6 (F := Ideal) (W (Proc.devRef .tc main_arg0)) (W (Proc.devRef .tc main_arg5)) := by
  simp only [hostOps0, List.flatten_cons, List.flatten_nil, List.append_nil]
  after_results_simp
  rfl

set_option maxHeartbeats 8000000 in
theorem pre_items (W : Valuation τ sig (Elt Ideal)) :
    StableHlo.after (List.flatten [hostOps0]) W (Proc.devRef .tc main_v13)
      = Cert.ReferenceIdeal.Read.val_main_v13 (F := Ideal) (W (Proc.devRef .tc main_arg1)) (W (Proc.devRef .tc main_arg6)) := by
  simp only [hostOps0, List.flatten_cons, List.flatten_nil, List.append_nil]
  after_results_simp
  rfl

set_option maxHeartbeats 8000000 in
theorem pre_feats (W : Valuation τ sig (Elt Ideal)) :
    (StableHlo.after (List.flatten [hostOps0]) W (Proc.devRef .tc main_v30) : S16384x4096.Idx → EReal)
      = Cert.ReferenceIdeal.Read.val_main_v37 (F := Ideal) (W (Proc.devRef .tc main_arg3)) (W (Proc.devRef .tc main_arg4))
          (W (Proc.devRef .tc main_arg6)) (W (Proc.devRef .tc main_arg7)) := by
  simp only [hostOps0, List.flatten_cons, List.flatten_nil, List.append_nil]
  after_results_simp
  rfl

set_option maxHeartbeats 8000000 in
theorem pre_weights (W : Valuation τ sig (Elt Ideal)) :
    (StableHlo.after (List.flatten [hostOps0]) W (Proc.devRef .tc main_v32) : S4096x64.Idx → EReal)
      = Cert.ReferenceIdeal.Read.val_main_v38 (F := Ideal) (W (Proc.devRef .tc main_arg8)) := by
  simp only [hostOps0, List.flatten_cons, List.flatten_nil, List.append_nil]
  after_results_simp
  rfl

set_option maxHeartbeats 8000000 in
theorem pre_bias (W : Valuation τ sig (Elt Ideal)) (d : Fin 64) :
    (StableHlo.after (List.flatten [hostOps0]) W (Proc.devRef .tc main_v33) : S1x64.Idx → EReal) (ix2 (0 : Fin 1) d)
      = (W (Proc.devRef .tc main_arg9) : S64.Idx → EReal) (ix1 d) := by
  simp only [hostOps0, List.flatten_cons, List.flatten_nil, List.append_nil]
  after_results_simp
  exact shapeCast_apply _ shapeCasts_S64_S1x64 (ix2 (0 : Fin 1) d) (ix1 d) (by
    rw [Shape.rowMajor_val_one, Shape.rowMajor_val_two]; simp)

/-! The same at the launch memory `m` of core `c`: what the region finds. -/

variable (m : (ℓ : Loc nD τ sig) → Buf (Elt Ideal) ℓ)

theorem users_eq (c : Dev nD) :
    V m c main_v6 = Cert.ReferenceIdeal.Read.val_main_v6 (F := Ideal) (m ((c : Thread nD τ).loc main_arg0)) (m ((c : Thread nD τ).loc main_arg5)) :=
  pre_users fun b => m (c, b)

theorem items_eq (c : Dev nD) :
    V m c main_v13 = Cert.ReferenceIdeal.Read.val_main_v13 (F := Ideal) (m ((c : Thread nD τ).loc main_arg1)) (m ((c : Thread nD τ).loc main_arg6)) :=
  pre_items fun b => m (c, b)

theorem feats_eq (c : Dev nD) :
    (V m c main_v30 : S16384x4096.Idx → EReal)
      = Cert.ReferenceIdeal.Read.val_main_v37 (F := Ideal) (m ((c : Thread nD τ).loc main_arg3)) (m ((c : Thread nD τ).loc main_arg4))
          (m ((c : Thread nD τ).loc main_arg6)) (m ((c : Thread nD τ).loc main_arg7)) :=
  pre_feats fun b => m (c, b)

theorem weights_eq (c : Dev nD) :
    (V m c main_v32 : S4096x64.Idx → EReal) = Cert.ReferenceIdeal.Read.val_main_v38 (F := Ideal) (m ((c : Thread nD τ).loc main_arg8)) :=
  pre_weights fun b => m (c, b)

theorem bias_eq (c : Dev nD) (d : Fin 64) :
    (V m c main_v33 : S1x64.Idx → EReal) (ix2 (0 : Fin 1) d) = (m ((c : Thread nD τ).loc main_arg9) : S64.Idx → EReal) (ix1 d) :=
  pre_bias (fun b => m (c, b)) d

end Cert.KernelIdeal.Hand

end
-- ==== Proof.Bridge.lean ====
/-
  The kernel's two score arrays are the reference's.

  Each array the region is launched on is the reference's value of the same name at the same arguments, so
  `pairScore` and `genItem` of them are the reference's two score vectors: the users' and items' gathered rows for the
  first, and for the second the users' rows against the logistic of the neighbourhood features times the transposed
  weights plus the bias.
-/
import proofs.«427795_j46832323395936_3_alg».proof.Proof.ScoreRuns
import proofs.«427795_j46832323395936_3_alg».proof.Proof.RegionInputs

noncomputable section

namespace Cert.KernelIdeal.Hand

open Cert.KernelIdeal Cert.KernelIdeal.Gen Idealize.ShloMosaic Idealize.ShloMosaic.TcCoe Idealize.SL.Sem Idealize.ShloMosaic.ValueIdx
open Cert.ReferenceIdeal.Read (val_main_v6 val_main_v13 val_main_v37 val_main_v38)

variable (m : (ℓ : Loc nD τ sig) → Buf (Elt Ideal) ℓ)

theorem firstScores_eq (c : Dev nD) :
    firstScores m c = Cert.Scores.pairScore (val_main_v6 (F := Ideal) (m ((c : Thread nD τ).loc main_arg0)) (m ((c : Thread nD τ).loc main_arg5))) (val_main_v13 (F := Ideal) (m ((c : Thread nD τ).loc main_arg1)) (m ((c : Thread nD τ).loc main_arg6))) :=
  congr (congrArg Cert.Scores.pairScore (users_eq m c)) (items_eq m c)

theorem secondScores_eq (c : Dev nD) :
    secondScores m c = Cert.Scores.pairScore (val_main_v6 (F := Ideal) (m ((c : Thread nD τ).loc main_arg0)) (m ((c : Thread nD τ).loc main_arg5)))
      (Cert.Scores.genItem (val_main_v37 (F := Ideal) (m ((c : Thread nD τ).loc main_arg3)) (m ((c : Thread nD τ).loc main_arg4)) (m ((c : Thread nD τ).loc main_arg6)) (m ((c : Thread nD τ).loc main_arg7))) (val_main_v38 (F := Ideal) (m ((c : Thread nD τ).loc main_arg8)))
        (fun d => ((m ((c : Thread nD τ).loc main_arg9)) : Cert.ReferenceIdeal.S64.Idx → EReal) (ix1 d))) :=
  congr (congrArg Cert.Scores.pairScore (users_eq m c))
    (congr (congr (congrArg Cert.Scores.genItem (feats_eq m c)) (weights_eq m c)) (funext fun d => bias_eq m c d))

end Cert.KernelIdeal.Hand

end
-- ==== Proof.RefScores.lean ====
/-
  The reference program's two score vectors, and its result, in the vocabulary of the bridge.

  The reference spells the logistic out as `1 / (1 + e^(-x))`, the host's row sum as `0 + ∑` and its matrix product as
  a sum over the 4096 contraction indices; its bias is the bias vector broadcast to a row and then down the batch. Read
  one operation at a time, its first score vector is `pairScore` of the two gathered embeddings, its generated item is
  `genItem` of the neighbourhood features, the transposed weights and the bias, and its second score vector is
  `pairScore` of the users against that; its result is the loss of the labels and the two.
-/
import proofs.«427795_j46832323395936_3_alg».proof.Proof.Gen.ReferenceIdeal.Read
import proofs.«427795_j46832323395936_3_alg».proof.Proof.Scores
import proofs.«427795_j46832323395936_3_alg».proof.Proof.Loss
import Idealize.ShloMosaic.Lib.ValueIdx
import Idealize.ShloMosaic.PureOps.Ideal.Laws

noncomputable section

open scoped BigOperators

namespace Cert.ReferenceIdeal.Hand

open Cert.ReferenceIdeal Cert.ReferenceIdeal.Gen Cert.ReferenceIdeal.Read Idealize.ShloMosaic Idealize.ShloMosaic.ValueIdx

variable (x0 x1 : (⟨S16384, .i32⟩ : BufTy).Contents (Elt Ideal)) (x2 : (⟨S16384, .f32⟩ : BufTy).Contents (Elt Ideal))
  (x3 x4 : (⟨S16384x32, .i32⟩ : BufTy).Contents (Elt Ideal)) (x5 : (⟨S500000x64, .f32⟩ : BufTy).Contents (Elt Ideal))
  (x6 : (⟨S1000000x64, .f32⟩ : BufTy).Contents (Elt Ideal)) (x7 : (⟨S64x64, .f32⟩ : BufTy).Contents (Elt Ideal))
  (x8 : (⟨S64x4096, .f32⟩ : BufTy).Contents (Elt Ideal)) (x9 : (⟨S64, .f32⟩ : BufTy).Contents (Elt Ideal))

/-- The reference's first score vector is `pairScore` of its two gathered embeddings. -/
theorem first_eq :
    (val_main_v21 (F := Ideal) x0 x1 x5 x6 : S16384.Idx → EReal)
      = Cert.Scores.pairScore (val_main_v6 (F := Ideal) x0 x5) (val_main_v13 (F := Ideal) x1 x6) := by
  funext i
  have e : ∀ k : Fin 64, idx_main_v15 i k = ix2 (i 0) k := fun k =>
    funext fun a => Fin.ext (by match a with | ⟨0, _⟩ => rfl | ⟨1, _⟩ => rfl)
  rw [val_main_v21_apply, val_main_v20_apply, val_main_cst_4_apply, val_main_v19_apply, val_main_v18_apply,
    val_main_cst_3_apply, val_main_v17_apply, val_main_v16_apply, val_main_v15_apply, val_main_cst_apply]
  simp only [val_main_v14_apply, e, Ideal.hostDivf_def, Ideal.addf_def, Ideal.hostUnary_exp_def, Ideal.hostNegf_def,
    Ideal.negf_def, Ideal.mulf_def, Ideal.ofBits_def, Cert.Scores.one_f32, Ideal.ofBits_zero_f32, zero_add]
  rfl

/-- The reference's generated item is `genItem` of its feature matrix, its transposed weights and its bias. -/
theorem gen_eq :
    (val_main_v48 (F := Ideal) x3 x4 x6 x7 x8 x9 : S16384x64.Idx → EReal)
      = Cert.Scores.genItem (val_main_v37 (F := Ideal) x3 x4 x6 x7) (val_main_v38 (F := Ideal) x8) (fun d => x9 (ix1 d)) := by
  funext i
  have el : ∀ k : Fin 4096, lidx_main_v39 i k = ix2 (i 0) k := fun k =>
    funext fun a => Fin.ext (by match a with | ⟨0, _⟩ => rfl | ⟨1, _⟩ => rfl)
  have er : ∀ k : Fin 4096, ridx_main_v39 i k = ix2 k (i 1) := fun k =>
    funext fun a => Fin.ext (by match a with | ⟨0, _⟩ => rfl | ⟨1, _⟩ => rfl)
  have eb : idx_main_v40 (idx_main_v41 i) = ix1 (i 1) :=
    funext fun a => Fin.ext (by match a with | ⟨0, _⟩ => rfl)
  rw [val_main_v48_apply, val_main_v47_apply, val_main_cst_10_apply, val_main_v46_apply, val_main_v45_apply,
    val_main_cst_9_apply, val_main_v44_apply, val_main_v43_apply, val_main_v42_apply, val_main_v41_apply,
    val_main_v40_apply, val_main_v39_apply, eb]
  simp only [el, er, Ideal.hostDivf_def, Ideal.addf_def, Ideal.hostUnary_exp_def, Ideal.hostNegf_def,
    Ideal.negf_def, Ideal.ofBits_def, Cert.Scores.one_f32]
  rfl

/-- The reference's second score vector is `pairScore` of the users against its generated item. -/
theorem second_eq :
    (val_main_v56 (F := Ideal) x0 x3 x4 x5 x6 x7 x8 x9 : S16384.Idx → EReal)
      = Cert.Scores.pairScore (val_main_v6 (F := Ideal) x0 x5) (val_main_v48 (F := Ideal) x3 x4 x6 x7 x8 x9) := by
  funext i
  have e : ∀ k : Fin 64, idx_main_v50 i k = ix2 (i 0) k := fun k =>
    funext fun a => Fin.ext (by match a with | ⟨0, _⟩ => rfl | ⟨1, _⟩ => rfl)
  rw [val_main_v56_apply, val_main_v55_apply, val_main_cst_13_apply, val_main_v54_apply, val_main_v53_apply,
    val_main_cst_12_apply, val_main_v52_apply, val_main_v51_apply, val_main_v50_apply, val_main_cst_11_apply]
  simp only [val_main_v49_apply, e, Ideal.hostDivf_def, Ideal.addf_def, Ideal.hostUnary_exp_def, Ideal.hostNegf_def,
    Ideal.negf_def, Ideal.mulf_def, Ideal.ofBits_def, Cert.Scores.one_f32, Ideal.ofBits_zero_f32, zero_add]
  rfl

/-- The reference's result is the loss of its labels and its two score vectors. -/
theorem result_eq :
    val_main_v83 (F := Ideal) x0 x1 x2 x3 x4 x5 x6 x7 x8 x9
      = Cert.KernelIdeal.Hand.loss x2 (val_main_v21 (F := Ideal) x0 x1 x5 x6) (val_main_v56 (F := Ideal) x0 x3 x4 x5 x6 x7 x8 x9) :=
  rfl

end Cert.ReferenceIdeal.Hand

end
-- ==== Proof.lean ====
/- The proof of `Cert.Claim` (proofs.«427795_j46832323395936_3_alg».proof.Defs): frame_Kernel ∧ frame_KernelIdeal ∧ frame_ReferenceIdeal ∧
   preserves_Kernel_KernelIdeal ∧ algebraic_KernelIdeal_ReferenceIdeal.

   The program scores 16384 (user, item) pairs twice and returns the sum of two clamped binary cross-entropies against the
   labels. The first score of pair b is σ(⟨u_b, i_b⟩): the logistic of the inner product of the gathered user and item rows
   (64 columns). The second is σ(⟨u_b, g_b⟩), where the generated item g_b = σ(t_b · Wᵀ + bias) is the logistic of a linear
   layer applied to the 4096 neighbourhood features t_b of the pair (32 neighbours, each a relation row beside an entity
   row). Kernel and reference gather with the same host lines; the kernel computes the two score vectors in a region
   of 8 blocks of 2048 pairs, with the logistic as one operation, a lane sum and a matrix product in a narrower float
   format; the reference computes them on whole arrays with the logistic spelt `1 / (1 + e^(-x))`, a row sum and a
   `dot_general`. On the extended reals a format change is the identity, the logistic IS that expression, and a lane sum,
   a row sum, a matrix product and a `dot_general` are finite sums, so both score vectors agree entry by entry on every
   input — no finiteness is used — and both programs then apply the same loss to them.

   The frames of the two kernel programs are the generated ones; the reference's is its generated run with the result
   dropped; the idealization rewrote no operation, so `preserves` is trivial. -/
import proofs.«427795_j46832323395936_3_alg».proof.Defs
import proofs.«427795_j46832323395936_3_alg».proof.Proof.Gen.Kernel
import proofs.«427795_j46832323395936_3_alg».proof.Proof.Gen.Kernel.Skeleton
import proofs.«427795_j46832323395936_3_alg».proof.Proof.Gen.Kernel.Launch
import proofs.«427795_j46832323395936_3_alg».proof.Proof.Gen.Kernel.Points
import proofs.«427795_j46832323395936_3_alg».proof.Proof.Gen.Kernel.Frame
import proofs.«427795_j46832323395936_3_alg».proof.Proof.Gen.KernelIdeal
import proofs.«427795_j46832323395936_3_alg».proof.Proof.Gen.KernelIdeal.Skeleton
import proofs.«427795_j46832323395936_3_alg».proof.Proof.Gen.KernelIdeal.Launch
import proofs.«427795_j46832323395936_3_alg».proof.Proof.Gen.KernelIdeal.Points
import proofs.«427795_j46832323395936_3_alg».proof.Proof.Gen.KernelIdeal.Frame
import proofs.«427795_j46832323395936_3_alg».proof.Proof.Gen.ReferenceIdeal
import proofs.«427795_j46832323395936_3_alg».proof.Proof.Gen.ReferenceIdeal.Run
import proofs.«427795_j46832323395936_3_alg».proof.Proof.Gen.ReferenceIdeal.Read
import proofs.«427795_j46832323395936_3_alg».proof.Proof.Gen.Pre_finite_inputs
import proofs.«427795_j46832323395936_3_alg».proof.Proof.KernelRun
import proofs.«427795_j46832323395936_3_alg».proof.Proof.Bridge
import proofs.«427795_j46832323395936_3_alg».proof.Proof.RefScores
import Idealize.ShloMosaic.Adequacy
import Idealize.ShloMosaic.Init

noncomputable section

namespace Cert.Proof

open Idealize.ShloMosaic Idealize.SL.Sem

/-- The reference terminates, faults nowhere and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the same loss: the kernel's run leaves
    the loss of the labels and of its two score arrays; the reference's result is the loss of its labels and its two
    score vectors, which are the kernel's arrays entry by entry. -/
theorem algebraic : Cert.algebraic_KernelIdeal_ReferenceIdeal := by
  intro m ρ m' ρ' _ hagree
  refine ⟨fun c => Cert.KernelIdeal.Hand.loss (m ((c.tc : Thread Cert.KernelIdeal.nD Cert.KernelIdeal.τ).loc Cert.KernelIdeal.main_arg2))
      (Cert.KernelIdeal.Hand.firstScores m c) (Cert.KernelIdeal.Hand.secondScores m c),
    Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v83_eq, a0, a1, a2, a3, a4, a5, a6, a7, a8, a9,
    Cert.ReferenceIdeal.Hand.result_eq, Cert.ReferenceIdeal.Hand.first_eq, Cert.ReferenceIdeal.Hand.second_eq,
    Cert.ReferenceIdeal.Hand.gen_eq]
  exact congr (congrArg (Cert.KernelIdeal.Hand.loss _) (Cert.KernelIdeal.Hand.firstScores_eq m c).symm)
    (Cert.KernelIdeal.Hand.secondScores_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
